-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x400000 : Shape := ⟨2, ![2, 400000]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S50000x256 .f32) (main_arg1 : IVec S2x400000 32) (main_arg2 : FVec F S256x256 .f32) (main_arg3 : FVec F S256 .f32) (main_arg4 : FVec F S256x256 .f32) (main_arg5 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_v13 main_v16
-- ==== Kernel.lean ====
abbrev S50000x256 : Shape := ⟨2, ![50000, 256]⟩
abbrev S2x400000 : Shape := ⟨2, ![2, 400000]⟩
abbrev S256x256 : Shape := ⟨2, ![256, 256]⟩
abbrev S256 : Shape := ⟨1, ![256]⟩
abbrev S1x400000 : Shape := ⟨2, ![1, 400000]⟩
abbrev S400000 : Shape := ⟨1, ![400000]⟩
abbrev S5000x256 : Shape := ⟨2, ![5000, 256]⟩
abbrev S50000 : Shape := ⟨1, ![50000]⟩
abbrev S450000 : Shape := ⟨1, ![450000]⟩
abbrev S_ : Shape := ⟨0, ![]⟩
abbrev S450000x1 : Shape := ⟨2, ![450000, 1]⟩
abbrev S450000x256 : Shape := ⟨2, ![450000, 256]⟩
abbrev S1x256 : Shape := ⟨2, ![1, 256]⟩

abbrev nBuf : Space → Nat
  | .hbm => 128
  | .vmem => 10
  | .smem => 0
  | _ => 0

abbrev bufTy : (tb : Table) → Fin (tcTables nBuf tb) → BufTy
  | .hbm, ⟨0, _⟩ => ⟨S50000x256, .f32⟩
  | .hbm, ⟨1, _⟩ => ⟨S2x400000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S1x400000, .i32⟩
  | .hbm, ⟨7, _⟩ => ⟨S400000, .i32⟩
  | .hbm, ⟨8, _⟩ => ⟨S1x400000, .i32⟩
  | .hbm, ⟨9, _⟩ => ⟨S400000, .i32⟩
  | .hbm, ⟨10, _⟩ => ⟨S50000x256, .f32⟩
  | .hbm, ⟨11, _⟩ => ⟨S50000, .i32⟩
  | .hbm, ⟨12, _⟩ => ⟨S450000, .i32⟩
  | .hbm, ⟨13, _⟩ => ⟨S450000, .i32⟩
  | .hbm, ⟨14, _⟩ => ⟨S_, .f32⟩
  | .hbm, ⟨15, _⟩ => ⟨S450000, .f32⟩
  | .hbm, ⟨16, _⟩ => ⟨S_, .f32⟩
  | .hbm, ⟨17, _⟩ => ⟨S50000, .f32⟩
  | .hbm, ⟨18, _⟩ => ⟨S450000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S450000, .i32⟩
  | .hbm, ⟨30, _⟩ => ⟨S450000, .i1⟩
  | .hbm, ⟨31, _⟩ => ⟨S_, .i32⟩
  | .hbm, ⟨32, _⟩ => ⟨S450000, .i32⟩
  | .hbm, ⟨33, _⟩ => ⟨S450000, .i32⟩
  | .hbm, ⟨34, _⟩ => ⟨S450000, .i32⟩
  | .hbm, ⟨35, _⟩ => ⟨S450000x1, .i32⟩
  | .hbm, ⟨36, _⟩ => ⟨S450000, .f32⟩
  | .hbm, ⟨37, _⟩ => ⟨S_, .i32⟩
  | .hbm, ⟨38, _⟩ => ⟨S450000, .i32⟩
  | .hbm, ⟨39, _⟩ => ⟨S450000, .i1⟩
  | .hbm, ⟨40, _⟩ => ⟨S_, .i32⟩
  | .hbm, ⟨41, _⟩ => ⟨S450000, .i32⟩
  | .hbm, ⟨42, _⟩ => ⟨S450000, .i32⟩
  | .hbm, ⟨43, _⟩ => ⟨S450000, .i32⟩
  | .hbm, ⟨44, _⟩ => ⟨S450000x1, .i32⟩
  | .hbm, ⟨45, _⟩ => ⟨S450000, .f32⟩
  | .hbm, ⟨46, _⟩ => ⟨S450000, .f32⟩
  | .hbm, ⟨47, _⟩ => ⟨S_, .i32⟩
  | .hbm, ⟨48, _⟩ => ⟨S450000, .i32⟩
  | .hbm, ⟨49, _⟩ => ⟨S450000, .i1⟩
  | .hbm, ⟨50, _⟩ => ⟨S_, .i32⟩
  | .hbm, ⟨51, _⟩ => ⟨S450000, .i32⟩
  | .hbm, ⟨52, _⟩ => ⟨S450000, .i32⟩
  | .hbm, ⟨53, _⟩ => ⟨S450000, .i32⟩
  | .hbm, ⟨54, _⟩ => ⟨S450000x1, .i32⟩
  | .hbm, ⟨55, _⟩ => ⟨S450000x256, .f32⟩
  | .hbm, ⟨56, _⟩ => ⟨S450000x1, .f32⟩
  | .hbm, ⟨57, _⟩ => ⟨S450000x256, .f32⟩
  | .hbm, ⟨58, _⟩ => ⟨S450000x256, .f32⟩
  | .hbm, ⟨59, _⟩ => ⟨S_, .f32⟩
  | .hbm, ⟨60, _⟩ => ⟨S50000x256, .f32⟩
  | .hbm, ⟨61, _⟩ => ⟨S450000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x256, .f32⟩
  | .hbm, ⟨70, _⟩ => ⟨S50000, .i32⟩
  | .hbm, ⟨71, _⟩ => ⟨S450000, .i32⟩
  | .hbm, ⟨72, _⟩ => ⟨S450000, .i32⟩
  | .hbm, ⟨73, _⟩ => ⟨S_, .f32⟩
  | .hbm, ⟨74, _⟩ => ⟨S450000, .f32⟩
  | .hbm, ⟨75, _⟩ => ⟨S_, .f32⟩
  | .hbm, ⟨76, _⟩ => ⟨S50000, .f32⟩
  | .hbm, ⟨77, _⟩ => ⟨S450000x1, .i32⟩
  | .hbm, ⟨78, _⟩ => ⟨S50000, .f32⟩
  | .hbm, ⟨79, _⟩ => ⟨S_, .f32⟩
  | .hbm, ⟨80, _⟩ => ⟨S50000, .f32⟩
  | .hbm, ⟨81, _⟩ => ⟨S50000, .i1⟩
  | .hbm, ⟨82, _⟩ => ⟨S50000, .f32⟩
  | .hbm, ⟨83, _⟩ => ⟨S_, .f32⟩
  | .hbm, ⟨84, _⟩ => ⟨S_, .f32⟩
  | .hbm, ⟨85, _⟩ => ⟨S50000, .f32⟩
  | .hbm, ⟨86, _⟩ => ⟨S50000, .f32⟩
  | .hbm, ⟨87, _⟩ => ⟨S_, .i32⟩
  | .hbm, ⟨88, _⟩ => ⟨S450000, .i32⟩
  | .hbm, ⟨89, _⟩ => ⟨S450000, .i1⟩
  | .hbm, ⟨90, _⟩ => ⟨S_, .i32⟩
  | .hbm, ⟨91, _⟩ => ⟨S450000, .i32⟩
  | .hbm, ⟨92, _⟩ => ⟨S450000, .i32⟩
  | .hbm, ⟨93, _⟩ => ⟨S450000, .i32⟩
  | .hbm, ⟨94, _⟩ => ⟨S450000x1, .i32⟩
  | .hbm, ⟨95, _⟩ => ⟨S450000, .f32⟩
  | .hbm, ⟨96, _⟩ => ⟨S_, .i32⟩
  | .hbm, ⟨97, _⟩ => ⟨S450000, .i32⟩
  | .hbm, ⟨98, _⟩ => ⟨S450000, .i1⟩
  | .hbm, ⟨99, _⟩ => ⟨S_, .i32⟩
  | .hbm, ⟨100, _⟩ => ⟨S450000, .i32⟩
  | .hbm, ⟨101, _⟩ => ⟨S450000, .i32⟩
  | .hbm, ⟨102, _⟩ => ⟨S450000, .i32⟩
  | .hbm, ⟨103, _⟩ => ⟨S450000x1, .i32⟩
  | .hbm, ⟨104, _⟩ => ⟨S450000, .f32⟩
  | .hbm, ⟨105, _⟩ => ⟨S450000, .f32⟩
  | .hbm, ⟨106, _⟩ => ⟨S_, .i32⟩
  | .hbm, ⟨107, _⟩ => ⟨S450000, .i32⟩
  | .hbm, ⟨108, _⟩ => ⟨S450000, .i1⟩
  | .hbm, ⟨109, _⟩ => ⟨S_, .i32⟩
  | .hbm, ⟨110, _⟩ => ⟨S450000, .i32⟩
  | .hbm, ⟨111, _⟩ => ⟨S450000, .i32⟩
  | .hbm, ⟨112, _⟩ => ⟨S450000, .i32⟩
  | .hbm, ⟨113, _⟩ => ⟨S450000x1, .i32⟩
  | .hbm, ⟨114, _⟩ => ⟨S450000x256, .f32⟩
  | .hbm, ⟨115, _⟩ => ⟨S450000x1, .f32⟩
  | .hbm, ⟨116, _⟩ => ⟨S450000x256, .f32⟩
  | .hbm, ⟨117, _⟩ => ⟨S450000x256, .f32⟩
  | .hbm, ⟨118, _⟩ => ⟨S_, .f32⟩
  | .hbm, ⟨119, _⟩ => ⟨S50000x256, .f32⟩
  | .hbm, ⟨120, _⟩ => ⟨S450000x1, .i32⟩
  | .hbm, ⟨121, _⟩ => ⟨S50000x256, .f32⟩
  | .hbm, ⟨122, _⟩ => ⟨S1x256, .f32⟩
  | .hbm, ⟨123, _⟩ => ⟨S50000x256, .f32⟩
  | .hbm, ⟨124, _⟩ => ⟨S50000x256, .f32⟩
  | .hbm, ⟨125, _⟩ => ⟨S_, .f32⟩
  | .hbm, ⟨126, _⟩ => ⟨S50000x256, .f32⟩
  | .hbm, ⟨127, _⟩ => ⟨S50000x256, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S256x256, .f32⟩
  | .local _ .vmem, ⟨8, _⟩ => ⟨S5000x256, .f32⟩
  | .local _ .vmem, ⟨9, _⟩ => ⟨S5000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call3_cst : Ref sig .tc := ⟨.hbm, 125, rfl⟩
abbrev main_call3_v0 : Ref sig .tc := ⟨.hbm, 126, rfl⟩
abbrev main_v91 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  concatenates_S400000_S50000_S450000_d0 : Shape.Concatenates [S400000, S50000] S450000 0
  bcast_S_S450000 : S_.BroadcastsInDim S450000 (![] : Fin 0 → Fin S450000.rank)
  bcast_S_S50000 : S_.BroadcastsInDim S50000 (![] : Fin 0 → Fin S50000.rank)
  bcast_S450000_S450000x1_0 : S450000.BroadcastsInDim S450000x1 (![0] : Fin 1 → Fin S450000x1.rank)
  bcast_S450000x1_S450000x256_0_1 : S450000x1.BroadcastsInDim S450000x256 (![0, 1] : Fin 2 → Fin S450000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S5000x256_S5000x256 : S5000x256.ShapeCasts S5000x256
  dot_S5000x256_S256x256_S5000x256_1_0_0_1_n_n_wf : DotDims.WF S5000x256 S256x256 S5000x256 [1] [0] [0] [1] [] []
  scatter_S50000_S450000x1_S450000_n_0_0_1_wf : ScatterDims.WF S50000 S450000x1 S450000 [] [0] [0] 1
  gather_S50000_S450000x1_S450000_n_0_n_n_0_1_1_wf : GatherDims.WF S50000 S450000x1 S450000 [] [0] [] [0] [] 1 ![1]
  gather_S50000x256_S450000x1_S450000x256_1_0_n_n_0_1_1256_wf : GatherDims.WF S50000x256 S450000x1 S450000x256 [1] [0] [] [0] [] 1 ![1, 256]
  scatter_S50000x256_S450000x1_S450000x256_1_0_0_1_wf : ScatterDims.WF S50000x256 S450000x1 S450000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)

variable [Facts₀]

def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def gather_S50000x256_S450000x1_S450000x256_1_0_n_n_0_1_1256 : GatherDims S50000x256 S450000x1 S450000x256 where
  offsetDims := [1]
  collapsedSliceDims := [0]
  operandBatchingDims := []
  startIndicesBatchingDims := []
  startIndexMap := [0]
  indexVectorDim := 1
  sliceSizes := ![1, 256]
  wf := gather_S50000x256_S450000x1_S450000x256_1_0_n_n_0_1_1256_wf
def scatter_S50000x256_S450000x1_S450000x256_1_0_0_1 : ScatterDims S50000x256 S450000x1 S450000x256 where
  updateWindowDims := [1]
  insertedWindowDims := [0]
  scatterDimsToOperandDims := [0]
  indexVectorDim := 1
  wf := scatter_S50000x256_S450000x1_S450000x256_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x400000 : Shape := ⟨2, ![2, 400000]⟩
abbrev S256x256 : Shape := ⟨2, ![256, 256]⟩
abbrev S256 : Shape := ⟨1, ![256]⟩
abbrev S1x400000 : Shape := ⟨2, ![1, 400000]⟩
abbrev S400000 : Shape := ⟨1, ![400000]⟩
abbrev S50000 : Shape := ⟨1, ![50000]⟩
abbrev S450000 : Shape := ⟨1, ![450000]⟩
abbrev S_ : Shape := ⟨0, ![]⟩
abbrev S450000x1 : Shape := ⟨2, ![450000, 1]⟩
abbrev S450000x256 : Shape := ⟨2, ![450000, 256]⟩
abbrev S1x256 : Shape := ⟨2, ![1, 256]⟩

abbrev nBuf : Space → Nat
  | .hbm => 128
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x400000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S1x400000, .i32⟩
  | .hbm, ⟨7, _⟩ => ⟨S400000, .i32⟩
  | .hbm, ⟨8, _⟩ => ⟨S1x400000, .i32⟩
  | .hbm, ⟨9, _⟩ => ⟨S400000, .i32⟩
  | .hbm, ⟨10, _⟩ => ⟨S50000x256, .f32⟩
  | .hbm, ⟨11, _⟩ => ⟨S50000, .i32⟩
  | .hbm, ⟨12, _⟩ => ⟨S450000, .i32⟩
  | .hbm, ⟨13, _⟩ => ⟨S450000, .i32⟩
  | .hbm, ⟨14, _⟩ => ⟨S_, .f32⟩
  | .hbm, ⟨15, _⟩ => ⟨S450000, .f32⟩
  | .hbm, ⟨16, _⟩ => ⟨S_, .f32⟩
  | .hbm, ⟨17, _⟩ => ⟨S50000, .f32⟩
  | .hbm, ⟨18, _⟩ => ⟨S450000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S450000, .i32⟩
  | .hbm, ⟨30, _⟩ => ⟨S450000, .i1⟩
  | .hbm, ⟨31, _⟩ => ⟨S_, .i32⟩
  | .hbm, ⟨32, _⟩ => ⟨S450000, .i32⟩
  | .hbm, ⟨33, _⟩ => ⟨S450000, .i32⟩
  | .hbm, ⟨34, _⟩ => ⟨S450000, .i32⟩
  | .hbm, ⟨35, _⟩ => ⟨S450000x1, .i32⟩
  | .hbm, ⟨36, _⟩ => ⟨S450000, .f32⟩
  | .hbm, ⟨37, _⟩ => ⟨S_, .i32⟩
  | .hbm, ⟨38, _⟩ => ⟨S450000, .i32⟩
  | .hbm, ⟨39, _⟩ => ⟨S450000, .i1⟩
  | .hbm, ⟨40, _⟩ => ⟨S_, .i32⟩
  | .hbm, ⟨41, _⟩ => ⟨S450000, .i32⟩
  | .hbm, ⟨42, _⟩ => ⟨S450000, .i32⟩
  | .hbm, ⟨43, _⟩ => ⟨S450000, .i32⟩
  | .hbm, ⟨44, _⟩ => ⟨S450000x1, .i32⟩
  | .hbm, ⟨45, _⟩ => ⟨S450000, .f32⟩
  | .hbm, ⟨46, _⟩ => ⟨S450000, .f32⟩
  | .hbm, ⟨47, _⟩ => ⟨S_, .i32⟩
  | .hbm, ⟨48, _⟩ => ⟨S450000, .i32⟩
  | .hbm, ⟨49, _⟩ => ⟨S450000, .i1⟩
  | .hbm, ⟨50, _⟩ => ⟨S_, .i32⟩
  | .hbm, ⟨51, _⟩ => ⟨S450000, .i32⟩
  | .hbm, ⟨52, _⟩ => ⟨S450000, .i32⟩
  | .hbm, ⟨53, _⟩ => ⟨S450000, .i32⟩
  | .hbm, ⟨54, _⟩ => ⟨S450000x1, .i32⟩
  | .hbm, ⟨55, _⟩ => ⟨S450000x256, .f32⟩
  | .hbm, ⟨56, _⟩ => ⟨S450000x1, .f32⟩
  | .hbm, ⟨57, _⟩ => ⟨S450000x256, .f32⟩
  | .hbm, ⟨58, _⟩ => ⟨S450000x256, .f32⟩
  | .hbm, ⟨59, _⟩ => ⟨S_, .f32⟩
  | .hbm, ⟨60, _⟩ => ⟨S50000x256, .f32⟩
  | .hbm, ⟨61, _⟩ => ⟨S450000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x256, .f32⟩
  | .hbm, ⟨70, _⟩ => ⟨S50000, .i32⟩
  | .hbm, ⟨71, _⟩ => ⟨S450000, .i32⟩
  | .hbm, ⟨72, _⟩ => ⟨S450000, .i32⟩
  | .hbm, ⟨73, _⟩ => ⟨S_, .f32⟩
  | .hbm, ⟨74, _⟩ => ⟨S450000, .f32⟩
  | .hbm, ⟨75, _⟩ => ⟨S_, .f32⟩
  | .hbm, ⟨76, _⟩ => ⟨S50000, .f32⟩
  | .hbm, ⟨77, _⟩ => ⟨S450000x1, .i32⟩
  | .hbm, ⟨78, _⟩ => ⟨S50000, .f32⟩
  | .hbm, ⟨79, _⟩ => ⟨S_, .f32⟩
  | .hbm, ⟨80, _⟩ => ⟨S50000, .f32⟩
  | .hbm, ⟨81, _⟩ => ⟨S50000, .i1⟩
  | .hbm, ⟨82, _⟩ => ⟨S50000, .f32⟩
  | .hbm, ⟨83, _⟩ => ⟨S_, .f32⟩
  | .hbm, ⟨84, _⟩ => ⟨S_, .f32⟩
  | .hbm, ⟨85, _⟩ => ⟨S50000, .f32⟩
  | .hbm, ⟨86, _⟩ => ⟨S50000, .f32⟩
  | .hbm, ⟨87, _⟩ => ⟨S_, .i32⟩
  | .hbm, ⟨88, _⟩ => ⟨S450000, .i32⟩
  | .hbm, ⟨89, _⟩ => ⟨S450000, .i1⟩
  | .hbm, ⟨90, _⟩ => ⟨S_, .i32⟩
  | .hbm, ⟨91, _⟩ => ⟨S450000, .i32⟩
  | .hbm, ⟨92, _⟩ => ⟨S450000, .i32⟩
  | .hbm, ⟨93, _⟩ => ⟨S450000, .i32⟩
  | .hbm, ⟨94, _⟩ => ⟨S450000x1, .i32⟩
  | .hbm, ⟨95, _⟩ => ⟨S450000, .f32⟩
  | .hbm, ⟨96, _⟩ => ⟨S_, .i32⟩
  | .hbm, ⟨97, _⟩ => ⟨S450000, .i32⟩
  | .hbm, ⟨98, _⟩ => ⟨S450000, .i1⟩
  | .hbm, ⟨99, _⟩ => ⟨S_, .i32⟩
  | .hbm, ⟨100, _⟩ => ⟨S450000, .i32⟩
  | .hbm, ⟨101, _⟩ => ⟨S450000, .i32⟩
  | .hbm, ⟨102, _⟩ => ⟨S450000, .i32⟩
  | .hbm, ⟨103, _⟩ => ⟨S450000x1, .i32⟩
  | .hbm, ⟨104, _⟩ => ⟨S450000, .f32⟩
  | .hbm, ⟨105, _⟩ => ⟨S450000, .f32⟩
  | .hbm, ⟨106, _⟩ => ⟨S_, .i32⟩
  | .hbm, ⟨107, _⟩ => ⟨S450000, .i32⟩
  | .hbm, ⟨108, _⟩ => ⟨S450000, .i1⟩
  | .hbm, ⟨109, _⟩ => ⟨S_, .i32⟩
  | .hbm, ⟨110, _⟩ => ⟨S450000, .i32⟩
  | .hbm, ⟨111, _⟩ => ⟨S450000, .i32⟩
  | .hbm, ⟨112, _⟩ => ⟨S450000, .i32⟩
  | .hbm, ⟨113, _⟩ => ⟨S450000x1, .i32⟩
  | .hbm, ⟨114, _⟩ => ⟨S450000x256, .f32⟩
  | .hbm, ⟨115, _⟩ => ⟨S450000x1, .f32⟩
  | .hbm, ⟨116, _⟩ => ⟨S450000x256, .f32⟩
  | .hbm, ⟨117, _⟩ => ⟨S450000x256, .f32⟩
  | .hbm, ⟨118, _⟩ => ⟨S_, .f32⟩
  | .hbm, ⟨119, _⟩ => ⟨S50000x256, .f32⟩
  | .hbm, ⟨120, _⟩ => ⟨S450000x1, .i32⟩
  | .hbm, ⟨121, _⟩ => ⟨S50000x256, .f32⟩
  | .hbm, ⟨122, _⟩ => ⟨S1x256, .f32⟩
  | .hbm, ⟨123, _⟩ => ⟨S50000x256, .f32⟩
  | .hbm, ⟨124, _⟩ => ⟨S50000x256, .f32⟩
  | .hbm, ⟨125, _⟩ => ⟨S_, .f32⟩
  | .hbm, ⟨126, _⟩ => ⟨S50000x256, .f32⟩
  | .hbm, ⟨127, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call3_cst : Ref sig .tc := ⟨.hbm, 125, rfl⟩
abbrev main_call3_v0 : Ref sig .tc := ⟨.hbm, 126, rfl⟩
abbrev main_v91 : Ref sig .tc := ⟨.hbm, 127, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  concatenates_S400000_S50000_S450000_d0 : Shape.Concatenates [S400000, S50000] S450000 0
  bcast_S_S450000 : S_.BroadcastsInDim S450000 (![] : Fin 0 → Fin S450000.rank)
  bcast_S_S50000 : S_.BroadcastsInDim S50000 (![] : Fin 0 → Fin S50000.rank)
  bcast_S450000_S450000x1_0 : S450000.BroadcastsInDim S450000x1 (![0] : Fin 1 → Fin S450000x1.rank)
  bcast_S450000x1_S450000x256_0_1 : S450000x1.BroadcastsInDim S450000x256 (![0, 1] : Fin 2 → Fin S450000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  dot_S50000x256_S256x256_S50000x256_1_0_0_1_n_n_wf : DotDims.WF S50000x256 S256x256 S50000x256 [1] [0] [0] [1] [] []
  scatter_S50000_S450000x1_S450000_n_0_0_1_wf : ScatterDims.WF S50000 S450000x1 S450000 [] [0] [0] 1
  gather_S50000_S450000x1_S450000_n_0_n_n_0_1_1_wf : GatherDims.WF S50000 S450000x1 S450000 [] [0] [] [0] [] 1 ![1]
  gather_S50000x256_S450000x1_S450000x256_1_0_n_n_0_1_1256_wf : GatherDims.WF S50000x256 S450000x1 S450000x256 [1] [0] [] [0] [] 1 ![1, 256]
  scatter_S50000x256_S450000x1_S450000x256_1_0_0_1_wf : ScatterDims.WF S50000x256 S450000x1 S450000x256 [1] [0] [0] 1

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def gather_S50000x256_S450000x1_S450000x256_1_0_n_n_0_1_1256 : GatherDims S50000x256 S450000x1 S450000x256 where
  offsetDims := [1]
  collapsedSliceDims := [0]
  operandBatchingDims := []
  startIndicesBatchingDims := []
  startIndexMap := [0]
  indexVectorDim := 1
  sliceSizes := ![1, 256]
  wf := gather_S50000x256_S450000x1_S450000x256_1_0_n_n_0_1_1256_wf
def scatter_S50000x256_S450000x1_S450000x256_1_0_0_1 : ScatterDims S50000x256 S450000x1 S450000x256 where
  updateWindowDims := [1]
  insertedWindowDims := [0]
  scatterDimsToOperandDims := [0]
  indexVectorDim := 1
  wf := scatter_S50000x256_S450000x1_S450000x256_1_0_0_1_wf

class Facts : Prop extends Facts₀ where

variable [Facts]
-- ==== Proof.Spec.lean ====
/-
  The two-layer graph convolution as one function of its inputs, with the dense product left as a parameter.

  One layer takes node features `h` (already multiplied by the layer's weights), the edge list's source and
  destination rows `s`, `d` and a bias `b`. It appends a self-loop `i → i` for every node, counts each node's
  in-degree `deg` over the extended edge list, forms `dinv = deg^(-1/2)` where `deg > 0` and `0` elsewhere, scales
  the feature row gathered at each edge's source by `dinv[src] · dinv[dst]`, adds the scaled rows up at each edge's
  destination, adds the bias to every row and clamps below at zero. Negative indices wrap by the node count before each
  gather, as the host's indexing does.

  The network is two such layers, each applied to the product `mm · W` of the previous features with that layer's
  weight matrix. Whatever computes the product, the rest is this one term: a proof that two programs agree only
  needs their products to agree.
-/
import proofs.«136317_j69595650065050_1_alg».proof.Proof.Gen.ReferenceIdeal

noncomputable section

namespace Cert.Gcn

open Idealize.ShloMosaic Cert.ReferenceIdeal Cert.ReferenceIdeal.Gen

variable {F : FTy → Type} [FloatOps F]

/-- Row 0 of the `[2, E]` edge list as a flat array: the edges' sources. -/
def srcRow (e : (⟨S2x400000, .i32⟩ : BufTy).Contents (Elt F)) : (⟨S400000, .i32⟩ : BufTy).Contents (Elt F) :=
  shapeCast _ (extractStridedSlice S1x400000 ![0, 0] e slices_S2x400000_S1x400000_0_0) shapeCasts_S1x400000_S400000

/-- Row 1 of the edge list: the edges' destinations. -/
def dstRow (e : (⟨S2x400000, .i32⟩ : BufTy).Contents (Elt F)) : (⟨S400000, .i32⟩ : BufTy).Contents (Elt F) :=
  shapeCast _ (extractStridedSlice S1x400000 ![1, 0] e slices_S2x400000_S1x400000_1_0) shapeCasts_S1x400000_S400000

/-- An index list with the self-loops `0 … N-1` appended. -/
def withLoops (s : (⟨S400000, .i32⟩ : BufTy).Contents (Elt F)) : (⟨S450000, .i32⟩ : BufTy).Contents (Elt F) :=
  concatenate S450000 0 [⟨S400000, s⟩, ⟨S50000, (iotaInDim S50000 32 0)⟩] concatenates_S400000_S50000_S450000_d0

/-- Negative indices wrapped by the node count, as a column of start indices for a gather. -/
def wrapCol (i : (⟨S450000, .i32⟩ : BufTy).Contents (Elt F)) : (⟨S450000x1, .i32⟩ : BufTy).Contents (Elt F) :=
  broadcastInDim S450000x1 ![0] bcast_S450000_S450000x1_0
    (select (cmpi .slt i (broadcastInDim S450000 ![] bcast_S_S450000 (constantI S_ 32 0#32)))
      (addi i (broadcastInDim S450000 ![] bcast_S_S450000 (constantI S_ 32 50000#32))) i)

/-- Each node's in-degree over the extended edge list: ones added up at the destinations. -/
def degree (dl : (⟨S450000, .i32⟩ : BufTy).Contents (Elt F)) : (⟨S50000, .f32⟩ : BufTy).Contents (Elt F) :=
  Host.scatterAdd scatter_S50000_S450000x1_S450000_n_0_0_1
    (broadcastInDim S50000 ![] bcast_S_S50000 (constant S_ .f32 0x00000000#32))
    (broadcastInDim S450000x1 ![0] bcast_S450000_S450000x1_0 dl)
    (broadcastInDim S450000 ![] bcast_S_S450000 (constant S_ .f32 0x3F800000#32))

/-- `deg^(-1/2)` where the degree is positive, zero elsewhere. -/
def invSqrtDeg (deg : (⟨S50000, .f32⟩ : BufTy).Contents (Elt F)) : (⟨S50000, .f32⟩ : BufTy).Contents (Elt F) :=
  select (cmpf .ogt deg (broadcastInDim S50000 ![] bcast_S_S50000 (constant S_ .f32 0x00000000#32)))
    (Host.rsqrt deg) (broadcastInDim S50000 ![] bcast_S_S50000 (id (constant S_ .f32 0x00000000#32)))

/-- One layer after its dense product: normalised sum over incoming edges, bias, clamp at zero. -/
def layer (h : (⟨S50000x256, .f32⟩ : BufTy).Contents (Elt F)) (s d : (⟨S400000, .i32⟩ : BufTy).Contents (Elt F))
    (b : (⟨S256, .f32⟩ : BufTy).Contents (Elt F)) : (⟨S50000x256, .f32⟩ : BufTy).Contents (Elt F) :=
  maximumf
    (addf
      (Host.scatterAdd scatter_S50000x256_S450000x1_S450000x256_1_0_0_1
        (broadcastInDim S50000x256 ![] bcast_S_S50000x256 (constant S_ .f32 0x00000000#32))
        (broadcastInDim S450000x1 ![0] bcast_S450000_S450000x1_0 (withLoops d))
        (mulf
          (Host.gather gather_S50000x256_S450000x1_S450000x256_1_0_n_n_0_1_1256 h (wrapCol (withLoops s)))
          (broadcastInDim S450000x256 ![0, 1] bcast_S450000x1_S450000x256_0_1
            (broadcastInDim S450000x1 ![0] bcast_S450000_S450000x1_0
              (mulf
                (Host.gather gather_S50000_S450000x1_S450000_n_0_n_n_0_1_1 (invSqrtDeg (degree (withLoops d))) (wrapCol (withLoops s)))
                (Host.gather gather_S50000_S450000x1_S450000_n_0_n_n_0_1_1 (invSqrtDeg (degree (withLoops d))) (wrapCol (withLoops d))))))))
      (broadcastInDim S50000x256 ![0, 1] bcast_S1x256_S50000x256_0_1 (broadcastInDim S1x256 ![1] bcast_S256_S1x256_1 b)))
    (broadcastInDim S50000x256 ![] bcast_S_S50000x256 (constant S_ .f32 0x00000000#32))

/-- The network over a given dense product `mm`. -/
def net (mm : (⟨S50000x256, .f32⟩ : BufTy).Contents (Elt F) → (⟨S256x256, .f32⟩ : BufTy).Contents (Elt F) → (⟨S50000x256, .f32⟩ : BufTy).Contents (Elt F))
    (x : (⟨S50000x256, .f32⟩ : BufTy).Contents (Elt F)) (e : (⟨S2x400000, .i32⟩ : BufTy).Contents (Elt F))
    (w1 : (⟨S256x256, .f32⟩ : BufTy).Contents (Elt F)) (b1 : (⟨S256, .f32⟩ : BufTy).Contents (Elt F))
    (w2 : (⟨S256x256, .f32⟩ : BufTy).Contents (Elt F)) (b2 : (⟨S256, .f32⟩ : BufTy).Contents (Elt F)) :
    (⟨S50000x256, .f32⟩ : BufTy).Contents (Elt F) :=
  layer (mm (layer (mm x w1) (srcRow e) (dstRow e) b1) w2) (srcRow e) (dstRow e) b2

end Cert.Gcn

end
-- ==== Proof.Stages.lean ====
/-
  The host stretches of the kernel's program, each read as one function of the buffers it starts from.

  Before the first product the program splits the edge list into its two rows. After each product it runs one layer's
  aggregation: the same operations on the product's result, the two rows and the layer's bias, whatever those buffers
  hold. Each stretch leaves every buffer it does not write as it was.
-/
import proofs.«136317_j69595650065050_1_alg».proof.Proof.Gen.KernelIdeal.Launch
import proofs.«136317_j69595650065050_1_alg».proof.Proof.Spec
import Idealize.ShloMosaic.Lib.StableHlo.Run

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo

variable {F : FTy → Type} [FloatOps F]
variable (V : Valuation τ sig (Elt F))

/-! ## The edge list's rows -/

theorem rows_src : after hostOps0 V (Proc.devRef .tc main_v1) = Cert.Gcn.srcRow (V (Proc.devRef .tc main_arg1)) := by
  simp only [hostOps0]; after_results; rfl
theorem rows_dst : after hostOps0 V (Proc.devRef .tc main_v3) = Cert.Gcn.dstRow (V (Proc.devRef .tc main_arg1)) := by
  simp only [hostOps0]; after_results; rfl
theorem rows_arg0 : after hostOps0 V (Proc.devRef .tc main_arg0) = V (Proc.devRef .tc main_arg0) := by
  simp only [hostOps0]; after_results
theorem rows_arg1 : after hostOps0 V (Proc.devRef .tc main_arg1) = V (Proc.devRef .tc main_arg1) := by
  simp only [hostOps0]; after_results
theorem rows_arg2 : after hostOps0 V (Proc.devRef .tc main_arg2) = V (Proc.devRef .tc main_arg2) := by
  simp only [hostOps0]; after_results
theorem rows_arg3 : after hostOps0 V (Proc.devRef .tc main_arg3) = V (Proc.devRef .tc main_arg3) := by
  simp only [hostOps0]; after_results
theorem rows_arg4 : after hostOps0 V (Proc.devRef .tc main_arg4) = V (Proc.devRef .tc main_arg4) := by
  simp only [hostOps0]; after_results
theorem rows_arg5 : after hostOps0 V (Proc.devRef .tc main_arg5) = V (Proc.devRef .tc main_arg5) := by
  simp only [hostOps0]; after_results

/-! ## The first layer's aggregation -/

/-- The buffers after the four stretches between the two products. -/
abbrev agg1 : Valuation τ sig (Elt F) := after hostOps1_3 (after hostOps1_2 (after hostOps1_1 (after hostOps1 V)))

theorem agg1_out : agg1 V (Proc.devRef .tc main_v47)
    = Cert.Gcn.layer (V (Proc.devRef .tc main_v4)) (V (Proc.devRef .tc main_v1)) (V (Proc.devRef .tc main_v3)) (V (Proc.devRef .tc main_arg3)) := by
  simp only [agg1, hostOps1, hostOps1_1, hostOps1_2, hostOps1_3]
  after_results_simp <;> (try simp only [TRef.ofBuf, TRef.toBuf, cast_eq]) <;> rfl

theorem agg1_v1 : agg1 V (Proc.devRef .tc main_v1) = V (Proc.devRef .tc main_v1) := by
  simp only [agg1, hostOps1, hostOps1_1, hostOps1_2, hostOps1_3]; after_results_simp
theorem agg1_v3 : agg1 V (Proc.devRef .tc main_v3) = V (Proc.devRef .tc main_v3) := by
  simp only [agg1, hostOps1, hostOps1_1, hostOps1_2, hostOps1_3]; after_results_simp
theorem agg1_arg4 : agg1 V (Proc.devRef .tc main_arg4) = V (Proc.devRef .tc main_arg4) := by
  simp only [agg1, hostOps1, hostOps1_1, hostOps1_2, hostOps1_3]; after_results_simp
theorem agg1_arg5 : agg1 V (Proc.devRef .tc main_arg5) = V (Proc.devRef .tc main_arg5) := by
  simp only [agg1, hostOps1, hostOps1_1, hostOps1_2, hostOps1_3]; after_results_simp

/-! ## The second layer's aggregation -/

/-- The buffers after the four stretches that follow the second product. -/
abbrev agg2 : Valuation τ sig (Elt F) := after hostOps2_3 (after hostOps2_2 (after hostOps2_1 (after hostOps2 V)))

theorem agg2_out : agg2 V (Proc.devRef .tc main_v91)
    = Cert.Gcn.layer (V (Proc.devRef .tc main_v48)) (V (Proc.devRef .tc main_v1)) (V (Proc.devRef .tc main_v3)) (V (Proc.devRef .tc main_arg5)) := by
  simp only [agg2, hostOps2, hostOps2_1, hostOps2_2, hostOps2_3]
  after_results_simp <;> (try simp only [TRef.ofBuf, TRef.toBuf, cast_eq]) <;> rfl

end Cert.KernelIdeal.Stages

end
-- ==== Proof.LibRowOps.lean ====
/-
  Two-axis operations read at a row and a column.

  General facts about arrays with two axes, written over indices `ix2 r c` with literal-typed coordinates, at the
  extended reals where arithmetic is involved:
  * a plain matrix product `[M, K] × [K, N]` into a zero accumulator is, at `(r, c)`, the sum over `k` of the left
    operand at `(r, k)` times the right at `(k, c)`;
  * a sum over the second axis of an `[R, n]` array is, at `r`, the sum over `k` of the array at `(r, k)`;
  * a one-axis array `[a]` cast to a column `[a, 1]` reads its entry `r`; a column `[a, 1]` broadcast to `[a, b]`
    reads the column's entry in the same row;
  * two arrays joined along the second axis read the first where the column falls inside it and the second, the first's
    width less, elsewhere.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx
open scoped BigOperators

/-! ## A plain matrix product -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem plain_lhs1 (M K N : ℕ) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (M K N : ℕ) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction index of a plain product, re-indexed by the one contracted coordinate. -/
theorem plain_sum (M K N : ℕ) (a : (⟨2, ![M, K]⟩ : Shape).Idx → EReal) (b : (⟨2, ![K, N]⟩ : Shape).Idx → EReal)
    (r : Fin M) (c : Fin N) :
    ∑ k : (DotDims.plain M K N).contr.Idx,
        a ((DotDims.plain M K N).lhsIdx (ix2 r c) k) * b ((DotDims.plain M K N).rhsIdx (ix2 r c) k)
      = ∑ k : Fin K, a (ix2 r k) * b (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun ax => Fin.ext (by
      match ax with
      | ⟨0, _⟩ => exact plain_lhs0 M K N _ _
      | ⟨1, _⟩ => exact (plain_lhs1 M K N _ _).trans hk)
  have er : (DotDims.plain M K N).rhsIdx (ix2 r c) ((contrEquiv1 (DotDims.plain M K N) K rfl rfl).symm k) = ix2 k c :=
    funext fun ax => Fin.ext (by
      match ax with
      | ⟨0, _⟩ => exact (plain_rhs0 M K N _ _).trans hk
      | ⟨1, _⟩ => exact plain_rhs1 M K N _ _)
  rw [el, er]

/-- A matrix product with plain dimension numbers into the zero accumulator, at `(r, c)`: `Σₖ a (r, k) · b (k, c)`.
    The dimension record may be any whose data are the plain ones (`hD`, by `rfl` for a printed record). -/
theorem matmul_plain_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (b : FVec Ideal ⟨2, ![K, N]⟩ φ₂) (r : Fin M) (c : Fin N) :
    matmul D prec a b (constant ⟨2, ![M, N]⟩ .f32 0x00000000#32) (ix2 r c) = ∑ k : Fin K, a (ix2 r k) * b (ix2 k c) := by
  subst hD
  exact (Ideal.matmul_constant_zero_apply (DotDims.plain M K N) prec a b (ix2 r c)).trans (plain_sum M K N a b r c)

/-! ## A sum along the second axis -/

/-- A float sum over axis 1 of an `[R, n]` array from the zero word, at `r`: `Σₖ x (r, k)`. -/
theorem multiReduction_add_rows {R n : ℕ} {φ : FTy} (x : FVec Ideal ⟨2, ![R, n]⟩ φ) (acc : BitVec φ.bits)
    (h : (⟨2, ![R, n]⟩ : Shape).Reduces [1] ⟨1, ![R]⟩) (hφ : FKind.Formats φ) (hacc : acc = FKind.add.neutral φ hφ) (r : Fin R) :
    multiReduction .add [1] ⟨1, ![R]⟩ x acc h hφ hacc (ix1 r) = ∑ k : Fin n, x (ix2 r k) := by
  refine (Ideal.multiReduction_add_single x acc h hφ hacc (ix1 r)).trans ?_
  refine Finset.sum_congr rfl fun k _ => congrArg x (funext fun ax => Fin.ext ?_)
  match ax with
  | ⟨0, _⟩ => rfl
  | ⟨1, _⟩ => rfl

/-! ## Columns -/

variable {α : Type}

/-- An `[a]` array cast to a column `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column's entry in row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-! ## Two arrays side by side -/

/-- Two arrays `[R, a]` and `[R, b]` joined along axis 1 into `[R, c]`, at `(r, k)`: the first at `(r, k)` when `k < a`,
    else the second at `(r, k - a)`. -/
theorem concatenate_cols_apply {R a b c : ℕ} (x₁ : (⟨2, ![R, a]⟩ : Shape).Idx → α) (x₂ : (⟨2, ![R, b]⟩ : Shape).Idx → α)
    (h : Shape.Concatenates [⟨2, ![R, a]⟩, ⟨2, ![R, b]⟩] ⟨2, ![R, c]⟩ 1) (hc : c = a + b) (r : Fin R) (k : Fin c) :
    concatenate ⟨2, ![R, c]⟩ 1 [⟨⟨2, ![R, a]⟩, x₁⟩, ⟨⟨2, ![R, b]⟩, x₂⟩] h (ix2 r k)
      = if hk : k.val < a then x₁ (ix2 r ⟨k.val, hk⟩) else x₂ (ix2 r ⟨k.val - a, by omega⟩) := by
  split
  · next hk =>
    refine concatenate_pair_apply_left 1 x₁ x₂ h (ix2 r k) rfl (ix2 r ⟨k.val, hk⟩) fun ax => ?_
    match ax with
    | ⟨0, _⟩ => rfl
    | ⟨1, _⟩ => rfl
  · next hk =>
    refine concatenate_pair_apply_right 1 x₁ x₂ h (ix2 r k) rfl rfl (ix2 r ⟨k.val - a, by omega⟩) (fun ax hne => ?_) ?_
    · match ax with
      | ⟨0, _⟩ => rfl
      | ⟨1, _⟩ => exact absurd rfl hne
    · show k.val - a + a = k.val
      omega

end Cert.RowOps

end
-- ==== Proof.MatProd.lean ====
/-
  The product of a matrix's rows with another's columns, at the extended reals, and the two operations that compute it.

  `prod a b` is, at `(r, c)`, the sum over `k` of `a (r, k) · b (k, c)`. A host `dot_general` with plain dimension numbers
  is that function of its operands; so is the matrix unit's product into a zero accumulator. A block of rows of the
  product depends only on the same rows of the left operand (`prod_congr_at`).
-/
import Idealize.ShloMosaic.PureOps.Ideal.Laws
import Idealize.ShloMosaic.Lib.ValueIdx
import proofs.«136317_j69595650065050_1_alg».proof.Proof.LibRowOps

noncomputable section

namespace Cert.MatProd

open Idealize.ShloMosaic Idealize.ShloMosaic.ValueIdx
open scoped BigOperators

/-- Rows of `a` times columns of `b`. -/
def prod {M K N : ℕ} (a : (⟨2, ![M, K]⟩ : Shape).Idx → EReal) (b : (⟨2, ![K, N]⟩ : Shape).Idx → EReal) :
    (⟨2, ![M, N]⟩ : Shape).Idx → EReal :=
  fun i => ∑ k : Fin K, a (ix2 (i 0) k) * b (ix2 k (i 1))

theorem prod_apply {M K N : ℕ} (a : (⟨2, ![M, K]⟩ : Shape).Idx → EReal) (b : (⟨2, ![K, N]⟩ : Shape).Idx → EReal)
    (r : Fin M) (c : Fin N) : prod a b (ix2 r c) = ∑ k : Fin K, a (ix2 r k) * b (ix2 k c) := rfl

/-- An entry of a product is decided by one row of the left operand and one column of the right: two products agree
    at two indices whose row and column hold the same numbers. -/
theorem prod_congr_at {M M' K N N' : ℕ} (a : (⟨2, ![M, K]⟩ : Shape).Idx → EReal) (b : (⟨2, ![K, N]⟩ : Shape).Idx → EReal)
    (a' : (⟨2, ![M', K]⟩ : Shape).Idx → EReal) (b' : (⟨2, ![K, N']⟩ : Shape).Idx → EReal)
    (i : (⟨2, ![M, N]⟩ : Shape).Idx) (i' : (⟨2, ![M', N']⟩ : Shape).Idx)
    (ha : ∀ k : Fin K, a (ix2 (i 0) k) = a' (ix2 (i' 0) k)) (hb : ∀ k : Fin K, b (ix2 k (i 1)) = b' (ix2 k (i' 1))) :
    prod a b i = prod a' b' i' :=
  Finset.sum_congr rfl fun k _ => by rw [ha k, hb k]

/-- The host's `dot_general` with plain dimension numbers is the product. -/
theorem hostDot_eq {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (b : FVec Ideal ⟨2, ![K, N]⟩ φ₂) :
    Host.dotGeneral D prec a b = prod a b := by
  funext i
  obtain ⟨r, c, rfl⟩ : ∃ (r : Fin M) (c : Fin N), i = ix2 r c := ⟨i 0, i 1, eq_ix2 i⟩
  subst hD
  exact (Ideal.dotGeneral_apply (DotDims.plain M K N) prec .single a b (ix2 r c)).trans (Cert.RowOps.plain_sum M K N a b r c)

/-- The matrix unit's product with plain dimension numbers into the zero accumulator is the product. -/
theorem matmulZero_eq {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (b : FVec Ideal ⟨2, ![K, N]⟩ φ₂) :
    matmul D prec a b (constant ⟨2, ![M, N]⟩ .f32 0x00000000#32) = prod a b := by
  funext i
  obtain ⟨r, c, rfl⟩ : ∃ (r : Fin M) (c : Fin N), i = ix2 r c := ⟨i 0, i 1, eq_ix2 i⟩
  exact Cert.RowOps.matmul_plain_apply D hD prec a b r c

end Cert.MatProd

end
-- ==== Proof.Region0Value.lean ====
/-
  The first tiled product, from blocks to the whole array.

  The region walks ten grid points; at point `t` it loads rows `5000 t … 5000 t + 4999` of its left operand and the whole
  `256 × 256` right operand, multiplies them on the matrix unit into a zero accumulator and writes the `5000 × 256` result
  back as rows `5000 t …` of the output. At the extended reals the stored block is the product of the loaded blocks, an entry
  of a product needs one row of the left operand only, and the ten row blocks tile the output: so the output array ends as the
  product of the two operand arrays as the region found them, whatever those contents are.
-/
import proofs.«136317_j69595650065050_1_alg».proof.Proof.Gen.KernelIdeal.Frame
import proofs.«136317_j69595650065050_1_alg».proof.Proof.MatProd
import Idealize.ShloMosaic.Lib.Pipeline.Value
import Idealize.ShloMosaic.Lib.Tactic

set_option maxRecDepth 16384

noncomputable section

namespace Cert.KernelIdeal.Region0

open Cert.KernelIdeal Cert.KernelIdeal.Gen Cert.MatProd
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the product of its two loaded blocks: the casts to the narrower format (and a cast of a
    shape to itself, where the body has one) change nothing at the extended reals, and the accumulator is zero. -/
theorem pay_eq (x0 : Vec Ideal S5000x256 .f32) (x1 : Vec Ideal S256x256 .f32) : k0_pay1 x0 x1 = prod x0 x1 := by
  unfold k0_pay1
  try rw [shapeCast_self]
  exact matmulZero_eq dot_S5000x256_S256x256_S5000x256_1_0_0_1_n_n rfl none _ _

/-- What the body leaves in the output's staging buffer: the product of the two input blocks. -/
theorem out_eq (x0 : Vec Ideal S5000x256 .f32) (x1 : Vec Ideal S256x256 .f32) : out0_2 x0 x1 = prod x0 x1 := by
  unfold out0_2
  rw [View.canon_unit_zero hz]
  simp only [View.ld_unit_zero (S := S5000x256) hz, View.ld_unit_zero (S := S256x256) hz]
  exact pay_eq x0 x1

/-- The printed index maps over the grid: point `t` reads row block `t` of the left operand and the whole right operand,
    and writes row block `t` of the result. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product: row `5000 t + p` of the product needs only row
    `5000 t + p` of the left operand, which is row `p` of the block the point loaded. -/
theorem flushed_eq (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2, out_eq]
  obtain ⟨e0, e1, e2, e3, e4, e5⟩ := idx_facts t
  funext j
  refine prod_congr_at (M := 5000) (K := 256) (N := 256) (M' := 50000) (N' := 256)
    (iblk0 V c 0 t) (iblk0 V c 1 t) (V c main_arg0) (V c main_arg2) j (((cfg0.win 2).blk t).view.emb j) (fun k => ?_) (fun k => ?_)
  · unfold iblk0
    rw [View.read_apply]
    show V c main_arg0 _ = V c main_arg0 _
    congr 1
    funext a
    apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  · unfold iblk0
    rw [View.read_apply]
    show V c main_arg2 _ = V c main_arg2 _
    congr 1
    funext a
    apply Fin.ext
    match a with
    | ⟨0, _⟩ => show win0_1.index t (0 : Fin 2) * 256 + 1 * k.val = k.val; omega
    | ⟨1, _⟩ => show win0_1.index t (1 : Fin 2) * 256 + 1 * (j 1).val = win0_2.index t (1 : Fin 2) * 256 + 1 * (j 1).val; omega

/-- An index of the result array lies in point `t`'s block iff each coordinate lies in the block's range on its axis. -/
theorem mem_blk (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v4).slice (win0_2.rect t)).set ↔ _
  rw [View.set_slice_whole, Rect.mem_set_unit]
  exact Iff.rfl

/-- Every row of the result is in the block of the point numbered by its row index over five thousand. -/
theorem cover (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- The result array after the region: the whole product of the two operand arrays as the region found them. -/
theorem final (c : Dev nD) : (dat0 V c).arrAt 2 cfg0.N = prod (V c main_arg0) (V c main_arg2) :=
  (dat0 V c).arrAt_eq_of_cover 2 (prod (V c main_arg0) (V c main_arg2)) (fun t _ => flushed_eq V c t) cover

end Cert.KernelIdeal.Region0

end
-- ==== Proof.Region1Value.lean ====
/-
  The second tiled product, from blocks to the whole array.

  The region walks ten grid points; at point `t` it loads rows `5000 t … 5000 t + 4999` of its left operand and the whole
  `256 × 256` right operand, multiplies them on the matrix unit into a zero accumulator and writes the `5000 × 256` result
  back as rows `5000 t …` of the output. At the extended reals the stored block is the product of the loaded blocks, an entry
  of a product needs one row of the left operand only, and the ten row blocks tile the output: so the output array ends as the
  product of the two operand arrays as the region found them, whatever those contents are.
-/
import proofs.«136317_j69595650065050_1_alg».proof.Proof.Gen.KernelIdeal.Frame
import proofs.«136317_j69595650065050_1_alg».proof.Proof.MatProd
import Idealize.ShloMosaic.Lib.Pipeline.Value
import Idealize.ShloMosaic.Lib.Tactic

set_option maxRecDepth 16384

noncomputable section

namespace Cert.KernelIdeal.Region1

open Cert.KernelIdeal Cert.KernelIdeal.Gen Cert.MatProd
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the product of its two loaded blocks: the casts to the narrower format (and a cast of a
    shape to itself, where the body has one) change nothing at the extended reals, and the accumulator is zero. -/
theorem pay_eq (x0 : Vec Ideal S5000x256 .f32) (x1 : Vec Ideal S256x256 .f32) : k1_pay1 x0 x1 = prod x0 x1 := by
  unfold k1_pay1
  try rw [shapeCast_self]
  exact matmulZero_eq dot_S5000x256_S256x256_S5000x256_1_0_0_1_n_n rfl none _ _

/-- What the body leaves in the output's staging buffer: the product of the two input blocks. -/
theorem out_eq (x0 : Vec Ideal S5000x256 .f32) (x1 : Vec Ideal S256x256 .f32) : out1_2 x0 x1 = prod x0 x1 := by
  unfold out1_2
  rw [View.canon_unit_zero hz]
  simp only [View.ld_unit_zero (S := S5000x256) hz, View.ld_unit_zero (S := S256x256) hz]
  exact pay_eq x0 x1

/-- The printed index maps over the grid: point `t` reads row block `t` of the left operand and the whole right operand,
    and writes row block `t` of the result. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole product: row `5000 t + p` of the product needs only row
    `5000 t + p` of the left operand, which is row `p` of the block the point loaded. -/
theorem flushed_eq (c : Dev nD) (t : Fin cfg1.N) :
    (dat1 V c).flushed 2 t = ((cfg1.win 2).blk t).view.read (Elt Ideal) (prod (V c main_v47) (V c main_arg4)) := by
  show (cfg1.win 2).cut (grid1.coords t) ((dat1 V c).after 2 t) = _
  rw [after1_2, out_eq]
  obtain ⟨e0, e1, e2, e3, e4, e5⟩ := idx_facts t
  funext j
  refine prod_congr_at (M := 5000) (K := 256) (N := 256) (M' := 50000) (N' := 256)
    (iblk1 V c 0 t) (iblk1 V c 1 t) (V c main_v47) (V c main_arg4) j (((cfg1.win 2).blk t).view.emb j) (fun k => ?_) (fun k => ?_)
  · unfold iblk1
    rw [View.read_apply]
    show V c main_v47 _ = V c main_v47 _
    congr 1
    funext a
    apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 256 + 1 * k.val = k.val; omega
  · unfold iblk1
    rw [View.read_apply]
    show V c main_arg4 _ = V c main_arg4 _
    congr 1
    funext a
    apply Fin.ext
    match a with
    | ⟨0, _⟩ => show win1_1.index t (0 : Fin 2) * 256 + 1 * k.val = k.val; omega
    | ⟨1, _⟩ => show win1_1.index t (1 : Fin 2) * 256 + 1 * (j 1).val = win1_2.index t (1 : Fin 2) * 256 + 1 * (j 1).val; omega

/-- An index of the result array lies in point `t`'s block iff each coordinate lies in the block's range on its axis. -/
theorem mem_blk (t : Fin cfg1.N) (i : S50000x256.Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v48).slice (win1_2.rect t)).set ↔ _
  rw [View.set_slice_whole, Rect.mem_set_unit]
  exact Iff.rfl

/-- Every row of the result is in the block of the point numbered by its row index over five thousand. -/
theorem cover (i : S50000x256.Idx) : ∃ t : Fin cfg1.N, (cfg1.win 2).flush t = true ∧ i ∈ ((cfg1.win 2).blk t).view.set := by
  have hi0 : (i 0).val < 50000 := (i 0).isLt
  have hi1 : (i 1).val < 256 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨e0, e1, e2, e3, e4, e5⟩ := idx_facts t
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 256 ≤ (i 1).val ∧ (i 1).val < win1_2.index t (1 : Fin 2) * 256 + 256; omega

/-- The result array after the region: the whole product of the two operand arrays as the region found them. -/
theorem final (c : Dev nD) : (dat1 V c).arrAt 2 cfg1.N = prod (V c main_v47) (V c main_arg4) :=
  (dat1 V c).arrAt_eq_of_cover 2 (prod (V c main_v47) (V c main_arg4)) (fun t _ => flushed_eq V c t) cover

end Cert.KernelIdeal.Region1

end
-- ==== Proof.KernelValue.lean ====
/-
  The kernel program's result buffer as a function of its arguments.

  The buffers are followed from the launch to the return, boundary by boundary: the edge list's two rows are split off; the
  first region leaves the product of the features with the first weight matrix; the host stretch that follows is one layer's
  aggregation of that product; the second region leaves the product of the layer's result with the second weight matrix;
  the last stretch aggregates again. A buffer nobody writes on the way keeps its launch contents. The result is the
  network of `Cert.Gcn.net` over the product of rows with columns.
-/
import proofs.«136317_j69595650065050_1_alg».proof.Proof.Gen.KernelIdeal.Frame
import proofs.«136317_j69595650065050_1_alg».proof.Proof.Stages
import proofs.«136317_j69595650065050_1_alg».proof.Proof.Region0Value
import proofs.«136317_j69595650065050_1_alg».proof.Proof.Region1Value

set_option maxRecDepth 16384

noncomputable section

namespace Cert.KernelIdeal.KValue

open Cert.KernelIdeal Cert.KernelIdeal.Gen Cert.KernelIdeal.Stages Cert.MatProd
open Idealize.ShloMosaic Idealize.ShloMosaic.TcCoe Idealize.SL.Sem Idealize.ShloMosaic.StableHlo

variable (m : (ℓ : Loc nD τ sig) → Buf (Elt Ideal) ℓ) (ρ : Dev nD → PrngReg)

/-- The product of rows with columns at the network's sizes. -/
abbrev mm := prod (M := 50000) (K := 256) (N := 256)

/-! ## After the rows are split off (the first region's entry) -/

theorem at1_arg0 (c : Dev nD) : W1 m ρ c (Proc.devRef .tc main_arg0) = m ((c : Thread nD τ).loc main_arg0) := rows_arg0 (W0 m ρ c)
theorem at1_arg2 (c : Dev nD) : W1 m ρ c (Proc.devRef .tc main_arg2) = m ((c : Thread nD τ).loc main_arg2) := rows_arg2 (W0 m ρ c)
theorem at1_arg3 (c : Dev nD) : W1 m ρ c (Proc.devRef .tc main_arg3) = m ((c : Thread nD τ).loc main_arg3) := rows_arg3 (W0 m ρ c)
theorem at1_arg4 (c : Dev nD) : W1 m ρ c (Proc.devRef .tc main_arg4) = m ((c : Thread nD τ).loc main_arg4) := rows_arg4 (W0 m ρ c)
theorem at1_arg5 (c : Dev nD) : W1 m ρ c (Proc.devRef .tc main_arg5) = m ((c : Thread nD τ).loc main_arg5) := rows_arg5 (W0 m ρ c)
theorem at1_src (c : Dev nD) : W1 m ρ c (Proc.devRef .tc main_v1) = Cert.Gcn.srcRow (m ((c : Thread nD τ).loc main_arg1)) := rows_src (W0 m ρ c)
theorem at1_dst (c : Dev nD) : W1 m ρ c (Proc.devRef .tc main_v3) = Cert.Gcn.dstRow (m ((c : Thread nD τ).loc main_arg1)) := rows_dst (W0 m ρ c)

/-! ## After the first region -/

theorem at2_prod (c : Dev nD) : W2 m ρ c (Proc.devRef .tc main_v4) = mm (m ((c : Thread nD τ).loc main_arg0)) (m ((c : Thread nD τ).loc main_arg2)) :=
  ((W2_arr m ρ c 2).trans (Region0.final (V1 m ρ) c)).trans (congrArg₂ mm (at1_arg0 m ρ c) (at1_arg2 m ρ c))
theorem at2_src (c : Dev nD) : W2 m ρ c (Proc.devRef .tc main_v1) = Cert.Gcn.srcRow (m ((c : Thread nD τ).loc main_arg1)) :=
  (W2_of_ne m ρ c main_v1 (by decide)).trans (at1_src m ρ c)
theorem at2_dst (c : Dev nD) : W2 m ρ c (Proc.devRef .tc main_v3) = Cert.Gcn.dstRow (m ((c : Thread nD τ).loc main_arg1)) :=
  (W2_of_ne m ρ c main_v3 (by decide)).trans (at1_dst m ρ c)
theorem at2_arg3 (c : Dev nD) : W2 m ρ c (Proc.devRef .tc main_arg3) = (m ((c : Thread nD τ).loc main_arg3)) :=
  (W2_of_ne m ρ c main_arg3 (by decide)).trans (at1_arg3 m ρ c)
theorem at2_arg4 (c : Dev nD) : W2 m ρ c (Proc.devRef .tc main_arg4) = (m ((c : Thread nD τ).loc main_arg4)) :=
  (W2_of_ne m ρ c main_arg4 (by decide)).trans (at1_arg4 m ρ c)
theorem at2_arg5 (c : Dev nD) : W2 m ρ c (Proc.devRef .tc main_arg5) = (m ((c : Thread nD τ).loc main_arg5)) :=
  (W2_of_ne m ρ c main_arg5 (by decide)).trans (at1_arg5 m ρ c)

/-! ## After the first layer's aggregation (the second region's entry) -/

/-- The first layer's output. -/
abbrev h1 (c : Dev nD) := Cert.Gcn.layer (mm (m ((c : Thread nD τ).loc main_arg0)) (m ((c : Thread nD τ).loc main_arg2))) (Cert.Gcn.srcRow (m ((c : Thread nD τ).loc main_arg1))) (Cert.Gcn.dstRow (m ((c : Thread nD τ).loc main_arg1))) (m ((c : Thread nD τ).loc main_arg3))

theorem at6_h1 (c : Dev nD) : W6 m ρ c (Proc.devRef .tc main_v47) = h1 m c := by
  refine (agg1_out (W2 m ρ c)).trans ?_
  rw [at2_prod, at2_src, at2_dst, at2_arg3]
theorem at6_src (c : Dev nD) : W6 m ρ c (Proc.devRef .tc main_v1) = Cert.Gcn.srcRow (m ((c : Thread nD τ).loc main_arg1)) :=
  (agg1_v1 (W2 m ρ c)).trans (at2_src m ρ c)
theorem at6_dst (c : Dev nD) : W6 m ρ c (Proc.devRef .tc main_v3) = Cert.Gcn.dstRow (m ((c : Thread nD τ).loc main_arg1)) :=
  (agg1_v3 (W2 m ρ c)).trans (at2_dst m ρ c)
theorem at6_arg4 (c : Dev nD) : W6 m ρ c (Proc.devRef .tc main_arg4) = (m ((c : Thread nD τ).loc main_arg4)) :=
  (agg1_arg4 (W2 m ρ c)).trans (at2_arg4 m ρ c)
theorem at6_arg5 (c : Dev nD) : W6 m ρ c (Proc.devRef .tc main_arg5) = (m ((c : Thread nD τ).loc main_arg5)) :=
  (agg1_arg5 (W2 m ρ c)).trans (at2_arg5 m ρ c)

/-! ## After the second region -/

theorem at7_prod (c : Dev nD) : W7 m ρ c (Proc.devRef .tc main_v48) = mm (h1 m c) (m ((c : Thread nD τ).loc main_arg4)) :=
  ((W7_arr m ρ c 2).trans (Region1.final (V6 m ρ) c)).trans (congrArg₂ mm (at6_h1 m ρ c) (at6_arg4 m ρ c))
theorem at7_src (c : Dev nD) : W7 m ρ c (Proc.devRef .tc main_v1) = Cert.Gcn.srcRow (m ((c : Thread nD τ).loc main_arg1)) :=
  (W7_of_ne m ρ c main_v1 (by decide)).trans (at6_src m ρ c)
theorem at7_dst (c : Dev nD) : W7 m ρ c (Proc.devRef .tc main_v3) = Cert.Gcn.dstRow (m ((c : Thread nD τ).loc main_arg1)) :=
  (W7_of_ne m ρ c main_v3 (by decide)).trans (at6_dst m ρ c)
theorem at7_arg5 (c : Dev nD) : W7 m ρ c (Proc.devRef .tc main_arg5) = (m ((c : Thread nD τ).loc main_arg5)) :=
  (W7_of_ne m ρ c main_arg5 (by decide)).trans (at6_arg5 m ρ c)

/-! ## At the return -/

/-- The result buffer at the last boundary is the network of its six arguments over the product of rows with columns. -/
theorem result (c : Dev nD) : W11 m ρ c (Proc.devRef .tc main_v91)
    = Cert.Gcn.net mm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (agg2_out (W7 m ρ c)).trans ?_
  rw [at7_prod, at7_src, at7_dst, at7_arg5]
  rfl

end Cert.KernelIdeal.KValue

end
-- ==== Proof.RefNet.lean ====
/-
  The reference program's result as the same network, over the host's own product.

  The reference's run ends with its result buffer at one long composed term of the arguments. That term is the network
  `Cert.Gcn.net` with the host's `dot_general` as the dense product — the same operations in the same places — and at the
  extended reals that `dot_general` is the product of rows with columns.
-/
import proofs.«136317_j69595650065050_1_alg».proof.Proof.RefRun
import proofs.«136317_j69595650065050_1_alg».proof.Proof.Spec
import proofs.«136317_j69595650065050_1_alg».proof.Proof.MatProd

set_option maxRecDepth 16384

noncomputable section

namespace Cert.ReferenceIdeal.RefNet

open Cert.ReferenceIdeal Cert.ReferenceIdeal.Gen
open Idealize.ShloMosaic Idealize.ShloMosaic.TcCoe Idealize.SL.Sem

/-- The reference's composed term is the network over the host's `dot_general`, for any float family. -/
theorem res_eq {F : FTy → Type} [FloatOps F] (m : (ℓ : Loc nD τ sig) → Buf (Elt F) ℓ) (c : Dev nD) :
    RunP.res_main_v91 m c = Cert.Gcn.net (fun l r => Host.dotGeneral dot_S50000x256_S256x256_S50000x256_1_0_0_1_n_n none l r)
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  unfold RunP.res_main_v91 Cert.Gcn.net Cert.Gcn.layer Cert.Gcn.srcRow Cert.Gcn.dstRow Cert.Gcn.withLoops Cert.Gcn.wrapCol Cert.Gcn.degree Cert.Gcn.invSqrtDeg
  rfl

/-- At the extended reals the host's `dot_general` of these shapes is the product of rows with columns. -/
theorem hostDot : (fun (l : (⟨S50000x256, .f32⟩ : BufTy).Contents (Elt Ideal)) (r : (⟨S256x256, .f32⟩ : BufTy).Contents (Elt Ideal)) =>
      Host.dotGeneral (F := Ideal) (φ₁ := .f32) (φ₂ := .f32) dot_S50000x256_S256x256_S50000x256_1_0_0_1_n_n none l r)
    = Cert.MatProd.prod (M := 50000) (K := 256) (N := 256) :=
  funext fun l => funext fun r => Cert.MatProd.hostDot_eq (M := 50000) (K := 256) (N := 256) (φ₁ := .f32) (φ₂ := .f32) dot_S50000x256_S256x256_S50000x256_1_0_0_1_n_n rfl none l r

/-- The reference's result at the extended reals: the network over the product of rows with columns. -/
theorem res_prod (m : (ℓ : Loc nD τ sig) → Buf (Elt Ideal) ℓ) (c : Dev nD) :
    RunP.res_main_v91 m c = Cert.Gcn.net (Cert.MatProd.prod (M := 50000) (K := 256) (N := 256))
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) :=
  (res_eq m c).trans (congrArg (fun mm => Cert.Gcn.net mm (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5))) hostDot)

end Cert.ReferenceIdeal.RefNet

end
-- ==== Proof.lean ====
/-
  A two-layer graph convolution whose dense products run as tiled kernels, against the same network written with the
  host's `dot_general`.

  Each layer multiplies the node features by a weight matrix and then aggregates: self-loops are appended to the edge list,
  in-degrees are counted, every edge's source row is scaled by `deg[src]^(-1/2) · deg[dst]^(-1/2)`, the scaled rows are summed
  at the edge's destination, a bias is added and the result clamped at zero. The two programs share every one of those host
  operations; they differ only in the product. The kernel computes it five thousand rows at a time on the matrix unit, from
  operands cast to a narrower float format, into a zero accumulator; the reference calls `dot_general` once.

  At the extended reals the casts are the identity and both products are the sum over `k` of `x (r, k) · w (k, c)`, in the
  same order; a row block of the product needs only the same rows of `x`, and the ten blocks tile the result. So both result
  buffers end at one term, `Cert.Gcn.net` over that product, of arguments that agree. No law beyond re-indexing a finite sum
  is used, and the inputs' finiteness is never opened.

  The frames of the two kernel programs are the generated ones; the reference's is its run with the result dropped. The
  idealization rewrote nothing, so there is nothing to preserve.
-/
import proofs.«136317_j69595650065050_1_alg».proof.Defs
import proofs.«136317_j69595650065050_1_alg».proof.Proof.Gen.Kernel
import proofs.«136317_j69595650065050_1_alg».proof.Proof.Gen.Kernel.Skeleton
import proofs.«136317_j69595650065050_1_alg».proof.Proof.Gen.Kernel.Launch
import proofs.«136317_j69595650065050_1_alg».proof.Proof.Gen.Kernel.Points
import proofs.«136317_j69595650065050_1_alg».proof.Proof.Gen.Kernel.Frame
import proofs.«136317_j69595650065050_1_alg».proof.Proof.Gen.KernelIdeal
import proofs.«136317_j69595650065050_1_alg».proof.Proof.Gen.KernelIdeal.Skeleton
import proofs.«136317_j69595650065050_1_alg».proof.Proof.Gen.KernelIdeal.Launch
import proofs.«136317_j69595650065050_1_alg».proof.Proof.Gen.KernelIdeal.Points
import proofs.«136317_j69595650065050_1_alg».proof.Proof.Gen.KernelIdeal.Frame
import proofs.«136317_j69595650065050_1_alg».proof.Proof.Gen.ReferenceIdeal
import proofs.«136317_j69595650065050_1_alg».proof.Proof.Gen.Pre_finite_inputs
import proofs.«136317_j69595650065050_1_alg».proof.Proof.KernelRun
import proofs.«136317_j69595650065050_1_alg».proof.Proof.KernelValue
import proofs.«136317_j69595650065050_1_alg».proof.Proof.RefNet
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

/-- Both programs end with the result buffer at the network of the (agreeing) arguments over the product of rows with
    columns: the kernel's by following its buffers from launch to return, the reference's by reading its composed term. -/
theorem algebraic : Cert.algebraic_KernelIdeal_ReferenceIdeal := by
  intro m ρ m' ρ' _ hagree
  refine ⟨fun c => Cert.Gcn.net Cert.KernelIdeal.KValue.mm (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KValue.result m ρ c), (h c).2⟩)
      (Cert.KernelIdeal.RunNamed.run_named (F := Ideal) m ρ)
  · refine (θ_run Cert.ReferenceIdeal.defs _ _).mono (fun _ h c => ⟨(h c).1.trans ?_, (h c).2⟩)
      (Cert.ReferenceIdeal.RunP.run (F := Ideal) m' ρ')
    rw [Cert.ReferenceIdeal.RefNet.res_prod, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
